-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S4x4096x4096 : Shape := ⟨3, ![4, 4096, 4096]⟩
abbrev S256x256 : Shape := ⟨2, ![256, 256]⟩
abbrev S4x128x128 : Shape := ⟨3, ![4, 128, 128]⟩
abbrev S128x2x256 : Shape := ⟨3, ![128, 2, 256]⟩
abbrev S128x1x256 : Shape := ⟨3, ![128, 1, 256]⟩
abbrev S128x256 : Shape := ⟨2, ![128, 256]⟩
abbrev S128x128x2 : Shape := ⟨3, ![128, 128, 2]⟩
abbrev S128x2x128 : Shape := ⟨3, ![128, 2, 128]⟩
abbrev S128x1x128 : Shape := ⟨3, ![128, 1, 128]⟩
abbrev S128x128 : Shape := ⟨2, ![128, 128]⟩
abbrev S1x128x128 : Shape := ⟨3, ![1, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S4x4096x4096, .f32⟩
  | .local _ .vmem, ⟨0, _⟩ => ⟨S256x256, .f32⟩
  | .local _ .vmem, ⟨1, _⟩ => ⟨S256x256, .f32⟩
  | .local _ .vmem, ⟨2, _⟩ => ⟨S4x128x128, .f32⟩
  | .local _ .vmem, ⟨3, _⟩ => ⟨S4x128x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S256x256_S256x256_0_0 : ∀ a, (![0, 0] : Fin 2 → Nat) a + S256x256.size a ≤ S256x256.size a
  h_S256x256 : 0 < S256x256.numel
  shapeCasts_S256x256_S128x2x256 : S256x256.ShapeCasts S128x2x256
  slices_S128x2x256_o0_0_0_S128x1x256 : S128x2x256.Slices ![0, 0, 0] S128x1x256
  shapeCasts_S128x1x256_S128x256 : S128x1x256.ShapeCasts S128x256
  slices_S128x2x256_o0_1_0_S128x1x256 : S128x2x256.Slices ![0, 1, 0] S128x1x256
  shapeCasts_S128x256_S128x128x2 : S128x256.ShapeCasts S128x128x2
  transposes_S128x128x2_p0_2_1_S128x2x128 : S128x128x2.Transposes [0, 2, 1] S128x2x128
  slices_S128x2x128_o0_0_0_S128x1x128 : S128x2x128.Slices ![0, 0, 0] S128x1x128
  shapeCasts_S128x1x128_S128x128 : S128x1x128.ShapeCasts S128x128
  slices_S128x2x128_o0_1_0_S128x1x128 : S128x2x128.Slices ![0, 1, 0] S128x1x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  shapeCasts_S128x128_S1x128x128 : S128x128.ShapeCasts S1x128x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x8192.size a
  hwx0_0 : ∀ i : grid0.Coords, EltTy.bits .f32 = 32 ∨ (Rect.block (s := S8192x8192) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x128.size a ≤ S4x4096x4096.size a
  hwx0_1 : ∀ i : grid0.Coords, EltTy.bits .f32 = 32 ∨ (Rect.block (s := S4x4096x4096) S4x128x128.size (cc0_transform_1 i) (hinb0_1 i)).WholeWords (EltTy.packing .f32)

variable [Facts₀]

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S4096x2x4096x2 : Shape := ⟨4, ![4096, 2, 4096, 2]⟩
abbrev S4096x1x4096x1 : Shape := ⟨4, ![4096, 1, 4096, 1]⟩
abbrev S4096x4096 : Shape := ⟨2, ![4096, 4096]⟩
abbrev S_ : Shape := ⟨0, ![]⟩
abbrev S1x4096x4096 : Shape := ⟨3, ![1, 4096, 4096]⟩
abbrev S4x4096x4096 : Shape := ⟨3, ![4, 4096, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S4096x2x4096x2, .f32⟩
  | .hbm, ⟨2, _⟩ => ⟨S4096x1x4096x1, .f32⟩
  | .hbm, ⟨3, _⟩ => ⟨S4096x4096, .f32⟩
  | .hbm, ⟨4, _⟩ => ⟨S4096x1x4096x1, .f32⟩
  | .hbm, ⟨5, _⟩ => ⟨S4096x4096, .f32⟩
  | .hbm, ⟨6, _⟩ => ⟨S4096x1x4096x1, .f32⟩
  | .hbm, ⟨7, _⟩ => ⟨S4096x4096, .f32⟩
  | .hbm, ⟨8, _⟩ => ⟨S4096x1x4096x1, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S1x4096x4096, .f32⟩
  | .hbm, ⟨35, _⟩ => ⟨S1x4096x4096, .f32⟩
  | .hbm, ⟨36, _⟩ => ⟨S1x4096x4096, .f32⟩
  | .hbm, ⟨37, _⟩ => ⟨S1x4096x4096, .f32⟩
  | .hbm, ⟨38, _⟩ => ⟨S4x4096x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]

class Facts₀ : Prop where
  shapeCasts_S8192x8192_S4096x2x4096x2 : S8192x8192.ShapeCasts S4096x2x4096x2
  slices_S4096x2x4096x2_S4096x1x4096x1_0_0_0_0 : S4096x2x4096x2.Slices ![0, 0, 0, 0] S4096x1x4096x1
  shapeCasts_S4096x1x4096x1_S4096x4096 : S4096x1x4096x1.ShapeCasts S4096x4096
  slices_S4096x2x4096x2_S4096x1x4096x1_0_0_0_1 : S4096x2x4096x2.Slices ![0, 0, 0, 1] S4096x1x4096x1
  slices_S4096x2x4096x2_S4096x1x4096x1_0_1_0_0 : S4096x2x4096x2.Slices ![0, 1, 0, 0] S4096x1x4096x1
  slices_S4096x2x4096x2_S4096x1x4096x1_0_1_0_1 : S4096x2x4096x2.Slices ![0, 1, 0, 1] S4096x1x4096x1
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  concatenates_S1x4096x4096_S1x4096x4096_S1x4096x4096_S1x4096x4096_S4x4096x4096_d0 : Shape.Concatenates [S1x4096x4096, S1x4096x4096, S1x4096x4096, S1x4096x4096] S4x4096x4096 0

variable [Facts₀]

class Facts : Prop extends Facts₀ where

variable [Facts]
-- ==== Proof.HaarSpec.lean ====
/-
  The two-dimensional Haar step on non-overlapping 2×2 blocks, as a function of the whole input.

  A block of the input, at rows 2p, 2p+1 and columns 2q, 2q+1, is written

      a b
      c d

  and output plane k ∈ {0, 1, 2, 3} holds at (p, q) half of one signed sum of the four entries:
      k = 0 : a + b + c + d      k = 1 : a + b − c − d
      k = 2 : a − b + c − d      k = 3 : a − b − c + d.
  The sum can be grouped two ways. Combining the two ROWS of the block first and the two columns after gives
  (a ± c) ± (b ± d); adding the entries from left to right gives ((a ± b) ± c) ± d. On the real numbers the two
  groupings agree; on the extended reals they need not (−(b + d) and −b − d differ when b and d are opposite
  infinities), so the law is stated for real entries.
-/
import Idealize.ShloMosaic.PureOps.Ideal
import Idealize.ShloMosaic.Lib.ValueIdx

noncomputable section

namespace Cert.Haar

open Idealize.ShloMosaic Idealize.ShloMosaic.ValueIdx

/-- The scaling constant of both programs, kept as the word it is printed as (one half). -/
abbrev scale : EReal := Ideal.ofBits .f32 0x3F000000#32

/-- Sub-band `k` of the block (a b / c d), the rows combined first. -/
def bandRows (k : Nat) (a b c d : EReal) : EReal :=
  if k = 0 then (a + c) + (b + d)
  else if k = 1 then (a - c) + (b - d)
  else if k = 2 then (a + c) - (b + d)
  else (a - c) - (b - d)

/-- Sub-band `k` of the block (a b / c d), the entries added from left to right. -/
def bandLeft (k : Nat) (a b c d : EReal) : EReal :=
  if k = 0 then a + b + c + d
  else if k = 1 then a + b - c - d
  else if k = 2 then a - b + c - d
  else a - b - c + d

theorem bandRows_zero (a b c d : EReal) : bandRows 0 a b c d = (a + c) + (b + d) := by
  unfold bandRows; rw [if_pos rfl]
theorem bandRows_one (a b c d : EReal) : bandRows 1 a b c d = (a - c) + (b - d) := by
  unfold bandRows; rw [if_neg (by decide), if_pos rfl]
theorem bandRows_two (a b c d : EReal) : bandRows 2 a b c d = (a + c) - (b + d) := by
  unfold bandRows; rw [if_neg (by decide), if_neg (by decide), if_pos rfl]
theorem bandRows_three (a b c d : EReal) : bandRows 3 a b c d = (a - c) - (b - d) := by
  unfold bandRows; rw [if_neg (by decide), if_neg (by decide), if_neg (by decide)]

theorem bandLeft_zero (a b c d : EReal) : bandLeft 0 a b c d = a + b + c + d := by
  unfold bandLeft; rw [if_pos rfl]
theorem bandLeft_one (a b c d : EReal) : bandLeft 1 a b c d = a + b - c - d := by
  unfold bandLeft; rw [if_neg (by decide), if_pos rfl]
theorem bandLeft_two (a b c d : EReal) : bandLeft 2 a b c d = a - b + c - d := by
  unfold bandLeft; rw [if_neg (by decide), if_neg (by decide), if_pos rfl]
theorem bandLeft_three (a b c d : EReal) : bandLeft 3 a b c d = a - b - c + d := by
  unfold bandLeft; rw [if_neg (by decide), if_neg (by decide), if_neg (by decide)]

/-- On real entries the two groupings of each signed sum agree. -/
theorem bandLeft_eq_bandRows (k : Nat) (a b c d : ℝ) :
    bandLeft k (a : EReal) (b : EReal) (c : EReal) (d : EReal) = bandRows k (a : EReal) (b : EReal) (c : EReal) (d : EReal) := by
  unfold bandLeft bandRows
  split_ifs <;> norm_cast <;> ring

/-- The entry of the 2×2 block at block row `p`, block column `q`, in row `dr` and column `dc` of the block. -/
abbrev corner (p q : Fin 4096) (dr dc : Fin 2) : (⟨2, ![8192, 8192]⟩ : Shape).Idx :=
  ix2 ⟨2 * p.val + dr.val, by have := p.isLt; have := dr.isLt; omega⟩ ⟨2 * q.val + dc.val, by have := q.isLt; have := dc.isLt; omega⟩

/-- THE TRANSFORM: plane `j 0` at `(j 1, j 2)` is the sub-band of the block at `(j 1, j 2)`, scaled by `h`. -/
def haar (h : EReal) (x : (⟨2, ![8192, 8192]⟩ : Shape).Idx → EReal) : (⟨3, ![4, 4096, 4096]⟩ : Shape).Idx → EReal :=
  fun j => bandRows (j 0).val (x (corner (j 1) (j 2) 0 0)) (x (corner (j 1) (j 2) 0 1))
    (x (corner (j 1) (j 2) 1 0)) (x (corner (j 1) (j 2) 1 1)) * h

end Cert.Haar

end
-- ==== Proof.Finite.lean ====
/-
  What the precondition says of the input: every entry is a real number.

  The precondition is "all entries x satisfy |x| < +∞", one conjunction over the whole array. An extended real
  whose absolute value max(x, −x) lies below +∞ is neither infinity, so it is a real.
-/
import proofs.«413146_j14989435863553_4_alg».proof.Pre_finite_inputs
import Idealize.ShloMosaic.Lib.ReduceAll
import Idealize.ShloMosaic.Lib.ValueIdx
import Idealize.ShloMosaic.PureOps.Ideal

noncomputable section

namespace Cert.Pre_finite_inputs.Finite

open Idealize.ShloMosaic Idealize.ShloMosaic.ValueIdx Cert.Pre_finite_inputs

instance : Subsingleton S_.Idx := ⟨fun a b => funext fun d => d.elim0⟩

/-- An extended real whose absolute value is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

/-- The word the comparison is made against denotes +∞. -/
theorem inf_word : Ideal.ofBits .f32 0x7F800000#32 = (⊤ : EReal) := by
  simp [Ideal.ofBits, Ideal.ieee]

/-- Under the precondition every entry of the input is a real number. -/
theorem real_of_pre [Facts] (x : FVec Ideal S8192x8192 .f32) (h : fn (F := Ideal) x = fun _ => 1#1)
    (i : S8192x8192.Idx) : ∃ r : ℝ, x i = (r : EReal) := by
  have h0 := congrFun h ix0
  dsimp only [fn] at h0
  have hi := Host.reduce_andi_all _ _ _ _ _ h0 i
  have hc : Ideal.cmp .olt (max (x i) (-(x i))) (Ideal.ofBits .f32 0x7F800000#32) = 1#1 := hi
  rw [inf_word] at hc
  by_cases hlt : max (x i) (-(x i)) < ⊤
  · exact real_of_abs_lt_top _ hlt
  · exfalso
    simp [Ideal.cmp, hlt] at hc

end Cert.Pre_finite_inputs.Finite

end
-- ==== Proof.KernelBlock.lean ====
/-
  One grid point of the kernel, read at an index.

  The body loads a 256×256 block X of the input. Splitting the rows into pairs, it takes the even rows
  X(2r, ·) and the odd rows X(2r+1, ·), forms their sum and their difference (128×256 each), splits the
  columns of both into pairs and moves the position inside the pair in front of the pair's number, so that
  entry (r, k, n) of the rearranged sum is X(2r, 2n+k) + X(2r+1, 2n+k), and likewise for the difference.
  The four stored planes add or subtract the k = 0 and k = 1 slices of those and scale by the constant.
  Each step below reads one of these values at explicit coordinates.
-/
import proofs.«413146_j14989435863553_4_alg».proof.Proof.Gen.KernelIdeal.Frame
import proofs.«413146_j14989435863553_4_alg».proof.Proof.HaarSpec
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Haar

variable (x0 : Vec Ideal S256x256 .f32)

/-- Row `r` of the even rows is row `2r` of the block. -/
theorem evenRows (r : Fin 128) (n : Fin 256) :
    k0_pay3 x0 (ix2 r n) = x0 (ix2 ⟨2 * r.val, by have := r.isLt; omega⟩ n) := by
  have hr := r.isLt
  have hn := n.isLt
  dsimp only [k0_pay3, k0_pay2]
  refine (shapeCast_apply _ _ (ix2 r n) (ix3 r (0 : Fin 1) n) ?_).trans ?_
  · rw [Shape.rowMajor_val_three, Shape.rowMajor_val_two]
    show (r.val * 1 + 0) * 256 + n.val = r.val * 256 + n.val
    omega
  refine (extractStridedSlice_apply _ _ _ (ix3 r (0 : Fin 1) n) (ix3 r (0 : Fin 2) n) ?_).trans ?_
  · intro a
    match a with
    | ⟨0, _⟩ => show r.val = 0 + r.val; omega
    | ⟨1, _⟩ => show (0 : Nat) = 0 + 0; omega
    | ⟨2, _⟩ => show n.val = 0 + n.val; omega
  refine shapeCast_apply _ _ (ix3 r (0 : Fin 2) n) (ix2 ⟨2 * r.val, by omega⟩ n) ?_
  rw [Shape.rowMajor_val_two, Shape.rowMajor_val_three]
  show 2 * r.val * 256 + n.val = (r.val * 2 + 0) * 256 + n.val
  omega

/-- Row `r` of the odd rows is row `2r + 1` of the block. -/
theorem oddRows (r : Fin 128) (n : Fin 256) :
    k0_pay4 x0 (ix2 r n) = x0 (ix2 ⟨2 * r.val + 1, by have := r.isLt; omega⟩ n) := by
  have hr := r.isLt
  have hn := n.isLt
  dsimp only [k0_pay4, k0_pay2]
  refine (shapeCast_apply _ _ (ix2 r n) (ix3 r (0 : Fin 1) n) ?_).trans ?_
  · rw [Shape.rowMajor_val_three, Shape.rowMajor_val_two]
    show (r.val * 1 + 0) * 256 + n.val = r.val * 256 + n.val
    omega
  refine (extractStridedSlice_apply _ _ _ (ix3 r (0 : Fin 1) n) (ix3 r (1 : Fin 2) n) ?_).trans ?_
  · intro a
    match a with
    | ⟨0, _⟩ => show r.val = 0 + r.val; omega
    | ⟨1, _⟩ => show (1 : Nat) = 1 + 0; omega
    | ⟨2, _⟩ => show n.val = 0 + n.val; omega
  refine shapeCast_apply _ _ (ix3 r (1 : Fin 2) n) (ix2 ⟨2 * r.val + 1, by omega⟩ n) ?_
  rw [Shape.rowMajor_val_two, Shape.rowMajor_val_three]
  show (2 * r.val + 1) * 256 + n.val = (r.val * 2 + 1) * 256 + n.val
  omega

/-- The rearranged row sums: entry `(r, k, n)` is the sum of the two rows at column `2n + k`. -/
theorem sumCols (r : Fin 128) (k : Fin 2) (n : Fin 128) :
    k0_pay5 x0 (ix3 r k n)
      = k0_pay3 x0 (ix2 r ⟨2 * n.val + k.val, by have := n.isLt; have := k.isLt; omega⟩)
        + k0_pay4 x0 (ix2 r ⟨2 * n.val + k.val, by have := n.isLt; have := k.isLt; omega⟩) := by
  have hr := r.isLt
  have hn := n.isLt
  have hk := k.isLt
  dsimp only [k0_pay5]
  refine (transpose_apply _ _ _ (ix3 r k n) (ix3 r n k)
    (fun b => match b with | ⟨0, _⟩ => rfl | ⟨1, _⟩ => rfl | ⟨2, _⟩ => rfl)).trans ?_
  refine (shapeCast_apply _ _ (ix3 r n k) (ix2 r ⟨2 * n.val + k.val, by omega⟩) ?_).trans ?_
  · rw [Shape.rowMajor_val_two, Shape.rowMajor_val_three]
    show r.val * 256 + (2 * n.val + k.val) = (r.val * 128 + n.val) * 2 + k.val
    omega
  rfl

/-- The rearranged row differences: entry `(r, k, n)` is the difference of the two rows at column `2n + k`. -/
theorem diffCols (r : Fin 128) (k : Fin 2) (n : Fin 128) :
    k0_pay6 x0 (ix3 r k n)
      = k0_pay3 x0 (ix2 r ⟨2 * n.val + k.val, by have := n.isLt; have := k.isLt; omega⟩)
        - k0_pay4 x0 (ix2 r ⟨2 * n.val + k.val, by have := n.isLt; have := k.isLt; omega⟩) := by
  have hr := r.isLt
  have hn := n.isLt
  have hk := k.isLt
  dsimp only [k0_pay6]
  refine (transpose_apply _ _ _ (ix3 r k n) (ix3 r n k)
    (fun b => match b with | ⟨0, _⟩ => rfl | ⟨1, _⟩ => rfl | ⟨2, _⟩ => rfl)).trans ?_
  refine (shapeCast_apply _ _ (ix3 r n k) (ix2 r ⟨2 * n.val + k.val, by omega⟩) ?_).trans ?_
  · rw [Shape.rowMajor_val_two, Shape.rowMajor_val_three]
    show r.val * 256 + (2 * n.val + k.val) = (r.val * 128 + n.val) * 2 + k.val
    omega
  rfl

/-- Slice `k` of a rearranged 128×2×128 value, as a 128×128 matrix: the common shape of the four slices. -/
theorem sliceAt (y : FVec Ideal S128x2x128 .f32) (k : Fin 2) (hs : S128x2x128.Slices ![0, k.val, 0] S128x1x128)
    (r n : Fin 128) :
    shapeCast S128x128 (extractStridedSlice S128x1x128 ![0, k.val, 0] y hs) shapeCasts_S128x1x128_S128x128 (ix2 r n)
      = y (ix3 r k n) := by
  have hr := r.isLt
  have hn := n.isLt
  have hk := k.isLt
  refine (shapeCast_apply _ _ (ix2 r n) (ix3 r (0 : Fin 1) n) ?_).trans ?_
  · rw [Shape.rowMajor_val_three, Shape.rowMajor_val_two]
    show (r.val * 1 + 0) * 128 + n.val = r.val * 128 + n.val
    omega
  refine extractStridedSlice_apply _ _ _ (ix3 r (0 : Fin 1) n) (ix3 r k n) ?_
  intro a
  match a with
  | ⟨0, _⟩ => show r.val = 0 + r.val; omega
  | ⟨1, _⟩ => show k.val = k.val + 0; omega
  | ⟨2, _⟩ => show n.val = 0 + n.val; omega

theorem sumEven (r n : Fin 128) : k0_pay7 x0 (ix2 r n) = k0_pay5 x0 (ix3 r 0 n) :=
  sliceAt (k0_pay5 x0) 0 slices_S128x2x128_o0_0_0_S128x1x128 r n
theorem sumOdd (r n : Fin 128) : k0_pay8 x0 (ix2 r n) = k0_pay5 x0 (ix3 r 1 n) :=
  sliceAt (k0_pay5 x0) 1 slices_S128x2x128_o0_1_0_S128x1x128 r n
theorem diffEven (r n : Fin 128) : k0_pay9 x0 (ix2 r n) = k0_pay6 x0 (ix3 r 0 n) :=
  sliceAt (k0_pay6 x0) 0 slices_S128x2x128_o0_0_0_S128x1x128 r n
theorem diffOdd (r n : Fin 128) : k0_pay10 x0 (ix2 r n) = k0_pay6 x0 (ix3 r 1 n) :=
  sliceAt (k0_pay6 x0) 1 slices_S128x2x128_o0_1_0_S128x1x128 r n

/-- Inside the loaded block: the entry of the 2×2 block at block row `r`, block column `n`, in row `dr` and
    column `dc` of the block. -/
abbrev entry (r n : Fin 128) (dr dc : Fin 2) : S256x256.Idx :=
  ix2 ⟨2 * r.val + dr.val, by have := r.isLt; have := dr.isLt; omega⟩ ⟨2 * n.val + dc.val, by have := n.isLt; have := dc.isLt; omega⟩

/-- Column `dc` of the 2×2 block, its two rows added. -/
theorem colSum (r n : Fin 128) (dc : Fin 2) :
    k0_pay5 x0 (ix3 r dc n) = x0 (entry r n 0 dc) + x0 (entry r n 1 dc) := by
  rw [sumCols, evenRows, oddRows]
  rfl

/-- Column `dc` of the 2×2 block, its lower row taken from its upper row. -/
theorem colDiff (r n : Fin 128) (dc : Fin 2) :
    k0_pay6 x0 (ix3 r dc n) = x0 (entry r n 0 dc) - x0 (entry r n 1 dc) := by
  rw [diffCols, evenRows, oddRows]
  rfl

/-- A 128×128 matrix given a leading unit axis, read at `(0, r, n)`. -/
theorem addUnit_apply (v : FVec Ideal S128x128 .f32) (r n : Fin 128) :
    shapeCast S1x128x128 v shapeCasts_S128x128_S1x128x128 (ix3 (0 : Fin 1) r n) = v (ix2 r n) := by
  have hr := r.isLt
  have hn := n.isLt
  refine shapeCast_apply _ _ (ix3 (0 : Fin 1) r n) (ix2 r n) ?_
  rw [Shape.rowMajor_val_two, Shape.rowMajor_val_three]
  show r.val * 128 + n.val = (0 * 128 + r.val) * 128 + n.val
  omega

/-- The first stored plane: the two column sums added. -/
theorem plane0 (r n : Fin 128) :
    k0_pay11 x0 (ix3 (0 : Fin 1) r n)
      = bandRows 0 (x0 (entry r n 0 0)) (x0 (entry r n 0 1)) (x0 (entry r n 1 0)) (x0 (entry r n 1 1)) * scale := by
  dsimp only [k0_pay11]
  refine (addUnit_apply _ r n).trans ?_
  show (k0_pay7 x0 (ix2 r n) + k0_pay8 x0 (ix2 r n)) * scale = _
  rw [sumEven, sumOdd, colSum, colSum, bandRows_zero]

/-- The second stored plane: the two column differences added. -/
theorem plane1 (r n : Fin 128) :
    k0_pay12 x0 (ix3 (0 : Fin 1) r n)
      = bandRows 1 (x0 (entry r n 0 0)) (x0 (entry r n 0 1)) (x0 (entry r n 1 0)) (x0 (entry r n 1 1)) * scale := by
  dsimp only [k0_pay12]
  refine (addUnit_apply _ r n).trans ?_
  show (k0_pay9 x0 (ix2 r n) + k0_pay10 x0 (ix2 r n)) * scale = _
  rw [diffEven, diffOdd, colDiff, colDiff, bandRows_one]

/-- The third stored plane: the second column sum taken from the first. -/
theorem plane2 (r n : Fin 128) :
    k0_pay13 x0 (ix3 (0 : Fin 1) r n)
      = bandRows 2 (x0 (entry r n 0 0)) (x0 (entry r n 0 1)) (x0 (entry r n 1 0)) (x0 (entry r n 1 1)) * scale := by
  dsimp only [k0_pay13]
  refine (addUnit_apply _ r n).trans ?_
  show (k0_pay7 x0 (ix2 r n) - k0_pay8 x0 (ix2 r n)) * scale = _
  rw [sumEven, sumOdd, colSum, colSum, bandRows_two]

/-- The fourth stored plane: the second column difference taken from the first. -/
theorem plane3 (r n : Fin 128) :
    k0_pay1 (k0_pay14 x0) (k0_pay15 (F := Ideal)) (ix3 (0 : Fin 1) r n)
      = bandRows 3 (x0 (entry r n 0 0)) (x0 (entry r n 0 1)) (x0 (entry r n 1 0)) (x0 (entry r n 1 1)) * scale := by
  dsimp only [k0_pay1, k0_pay14, k0_pay15]
  refine (addUnit_apply _ r n).trans ?_
  show (k0_pay9 x0 (ix2 r n) - k0_pay10 x0 (ix2 r n)) * scale = _
  rw [diffEven, diffOdd, colDiff, colDiff, bandRows_three]

/-- What one grid point leaves in the output block, as ONE function of the block index: plane `y 0` at
    `(y 1, y 2)` is sub-band `y 0` of the loaded block's 2×2 block at `(y 1, y 2)`, scaled. -/
def blockHaar (y : S4x128x128.Idx) : EReal :=
  bandRows (y 0).val (x0 (entry (y 1) (y 2) 0 0)) (x0 (entry (y 1) (y 2) 0 1))
    (x0 (entry (y 1) (y 2) 1 0)) (x0 (entry (y 1) (y 2) 1 1)) * scale

/-- A plane stored at offset `k` on the leading axis lands at plane `k` of the block, at the same row and column. -/
theorem blockHaar_at (k : Fin 4) (r n : Fin 128) (y : S4x128x128.Idx)
    (h0 : (y 0).val = k.val) (h1 : (y 1).val = r.val) (h2 : (y 2).val = n.val) :
    blockHaar x0 y
      = bandRows k.val (x0 (entry r n 0 0)) (x0 (entry r n 0 1)) (x0 (entry r n 1 0)) (x0 (entry r n 1 1)) * scale := by
  have e1 : y 1 = r := Fin.ext h1
  have e2 : y 2 = n := Fin.ext h2
  unfold blockHaar
  rw [h0, e1, e2]

theorem hz2 : (![0, 0] : Fin 2 → Nat) = fun _ => 0 := funext fun a => by fin_cases a <;> rfl

/-- A 128×128 plane of sub-band `k` stored at offset `k` on the leading axis writes the block's `blockHaar`:
    the stored value at `x` is `blockHaar` at the block index `y` under `x`. -/
theorem lands (k : Fin 4) (pay : S1x128x128.Idx → EReal)
    (hpay : ∀ r n : Fin 128, pay (ix3 (0 : Fin 1) r n)
      = bandRows k.val (x0 (entry r n 0 0)) (x0 (entry r n 0 1)) (x0 (entry r n 1 0)) (x0 (entry r n 1 1)) * scale)
    (x : S1x128x128.Idx) (y : S4x128x128.Idx)
    (h0 : (y 0).val = k.val + 1 * (x 0).val) (h1 : (y 1).val = 0 + 1 * (x 1).val) (h2 : (y 2).val = 0 + 1 * (x 2).val) :
    pay x = blockHaar x0 y := by
  obtain ⟨z, r, n, rfl⟩ : ∃ (z : Fin 1) (r n : Fin 128), x = ix3 z r n := ⟨x 0, x 1, x 2, eq_ix3 x⟩
  obtain rfl : z = 0 := Subsingleton.elim _ _
  refine (hpay r n).trans (blockHaar_at x0 k r n y ?_ ?_ ?_).symm
  · rw [h0]; show k.val + 1 * 0 = k.val; omega
  · rw [h1]; show 0 + 1 * r.val = r.val; omega
  · rw [h2]; show 0 + 1 * n.val = n.val; omega

/-- The four stores tile the block, and each writes its plane of `blockHaar`. -/
theorem out_apply (y : S4x128x128.Idx) : out0_1 x0 y = blockHaar x0 y := by
  unfold out0_1
  simp only [View.ld_unit_zero (S := S256x256) hz2]
  refine View.canon_apply_of_pieces (Val := Elt Ideal) (blockHaar x0) _ ?_ y (cover0_1 _ _ _ _ y)
  intro pc hpc x
  rcases List.mem_cons.mp hpc with rfl | hpc
  · exact lands x0 3 _ (plane3 x0) x _ rfl rfl rfl
  rcases List.mem_cons.mp hpc with rfl | hpc
  · exact lands x0 2 _ (plane2 x0) x _ rfl rfl rfl
  rcases List.mem_cons.mp hpc with rfl | hpc
  · exact lands x0 1 _ (plane1 x0) x _ rfl rfl rfl
  rcases List.mem_cons.mp hpc with rfl | hpc
  · exact lands x0 0 _ (plane0 x0) x _ rfl rfl rfl
  nomatch hpc

end Cert.KernelIdeal.Block

end
-- ==== Proof.KernelArray.lean ====
/-
  From the blocks to the whole array.

  The grid has 32×32 points; point t = (i, j) reads the input block of rows 256i … 256i+255 and columns
  256j … 256j+255 and writes, in all four planes, the output block of rows 128i … 128i+127 and columns
  128j … 128j+127. The 2×2 block at (r, n) inside the loaded block is the 2×2 block at (128i + r, 128j + n) of the
  whole input, so what the point writes is its block of the transform of the whole input; the output blocks
  tile the output array, so after the run the array is the transform.
-/
import proofs.«413146_j14989435863553_4_alg».proof.Proof.Gen.KernelIdeal.Value
import proofs.«413146_j14989435863553_4_alg».proof.Proof.KernelBlock
import Idealize.ShloMosaic.Lib.Pipeline.Value
import Idealize.ShloMosaic.Lib.ValueIdx

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.Haar
open Idealize.ShloMosaic.Pipeline (Dat)

variable (m : (ℓ : Loc nD τ sig) → Buf (Elt Ideal) ℓ) (ρ : Dev nD → PrngReg)

/-- The two index maps at a point: the output block sits at plane offset 0, and on rows and columns the input
    block index is the output block index. -/
theorem idx_facts (t : Fin cfg0.N) :
    win0_1.index t (0 : Fin 3) = 0
    ∧ win0_0.index t (0 : Fin 2) = win0_1.index t (1 : Fin 3)
    ∧ win0_0.index t (1 : Fin 2) = win0_1.index t (2 : Fin 3) := ⟨rfl, rfl, rfl⟩

/-- An entry of a 2×2 block of the loaded block is the same entry of the 2×2 block of the whole input under
    the output index. -/
theorem read_entry (c : Dev nD) (t : Fin cfg0.N) (y : S4x128x128.Idx) (dr dc : Fin 2) :
    iblk m c 0 t (entry (y 1) (y 2) dr dc)
      = V m c main_arg0 (corner ((((cfg0.win 1).blk t).view.emb y) 1) ((((cfg0.win 1).blk t).view.emb y) 2) dr dc) := by
  obtain ⟨e0, e1, e2⟩ := idx_facts t
  have h1 : (y 1).val < 128 := (y 1).isLt
  have h2 : (y 2).val < 128 := (y 2).isLt
  have hr : dr.val < 2 := dr.isLt
  have hc : dc.val < 2 := dc.isLt
  show V m c main_arg0 (((cfg0.win 0).blk t).view.emb (entry (y 1) (y 2) dr dc)) = _
  refine congrArg (V m c main_arg0) (funext fun a => Fin.ext ?_)
  match a with
  | ⟨0, _⟩ =>
    show win0_0.index t (0 : Fin 2) * 256 + 1 * (2 * (y 1).val + dr.val) = 2 * (win0_1.index t (1 : Fin 3) * 128 + 1 * (y 1).val) + dr.val
    omega
  | ⟨1, _⟩ =>
    show win0_0.index t (1 : Fin 2) * 256 + 1 * (2 * (y 2).val + dc.val) = 2 * (win0_1.index t (2 : Fin 3) * 128 + 1 * (y 2).val) + dc.val
    omega

/-- WHAT POINT `t` WRITES BACK is block `t` of the transform of the input array as the region finds it. -/
theorem flushed_eq (c : Dev nD) (t : Fin cfg0.N) :
    (dats m 0 c).flushed 1 t = ((cfg0.win 1).blk t).view.read (Elt Ideal) (haar scale (V m c main_arg0)) := by
  rw [Cert.KernelIdeal.Value.flushed1]
  obtain ⟨e0, e1, e2⟩ := idx_facts t
  funext y
  have hk : ((((cfg0.win 1).blk t).view.emb y) 0).val = (y 0).val := by
    show win0_1.index t (0 : Fin 3) * 4 + 1 * (y 0).val = (y 0).val
    omega
  show out0_1 (iblk m c 0 t) y = haar scale (V m c main_arg0) (((cfg0.win 1).blk t).view.emb y)
  refine (out_apply (iblk m c 0 t) y).trans ?_
  show bandRows (y 0).val (iblk m c 0 t (entry (y 1) (y 2) 0 0)) (iblk m c 0 t (entry (y 1) (y 2) 0 1))
      (iblk m c 0 t (entry (y 1) (y 2) 1 0)) (iblk m c 0 t (entry (y 1) (y 2) 1 1)) * scale
    = bandRows ((((cfg0.win 1).blk t).view.emb y) 0).val
      (V m c main_arg0 (corner ((((cfg0.win 1).blk t).view.emb y) 1) ((((cfg0.win 1).blk t).view.emb y) 2) 0 0))
      (V m c main_arg0 (corner ((((cfg0.win 1).blk t).view.emb y) 1) ((((cfg0.win 1).blk t).view.emb y) 2) 0 1))
      (V m c main_arg0 (corner ((((cfg0.win 1).blk t).view.emb y) 1) ((((cfg0.win 1).blk t).view.emb y) 2) 1 0))
      (V m c main_arg0 (corner ((((cfg0.win 1).blk t).view.emb y) 1) ((((cfg0.win 1).blk t).view.emb y) 2) 1 1)) * scale
  rw [read_entry m c t y 0 0, read_entry m c t y 0 1, read_entry m c t y 1 0, read_entry m c t y 1 1, hk]

/-- An index of the output array is in point `t`'s block iff each coordinate is in the block's range on its axis. -/
theorem mem_blk (t : Fin cfg0.N) (i : S4x4096x4096.Idx) :
    i ∈ ((cfg0.win 1).blk t).view.set ↔ ∀ a : Fin 3, win0_1.index t a * S4x128x128.size a ≤ (i a).val ∧ (i a).val < win0_1.index t a * S4x128x128.size a + S4x128x128.size a := by
  show i ∈ ((View.whole main_v0).slice (win0_1.rect t)).set ↔ _
  rw [View.set_slice_whole, Rect.mem_set_unit]
  exact Iff.rfl

/-- On rows and columns the output block index at a point is the point's grid coordinate. -/
theorem idx_coords (t : Fin cfg0.N) :
    win0_1.index t (1 : Fin 3) = (grid0.coords t 0).val ∧ win0_1.index t (2 : Fin 3) = (grid0.coords t 1).val := by
  have h0 : (grid0.coords t 0).val < 32 := (grid0.coords t 0).isLt
  have h1 : (grid0.coords t 1).val < 32 := (grid0.coords t 1).isLt
  constructor
  · show (BitVec.ofNat 32 (grid0.coords t 0).val).toNat = _
    rw [BitVec.toNat_ofNat]
    exact Nat.mod_eq_of_lt (show _ < 4294967296 by omega)
  · show (BitVec.ofNat 32 (grid0.coords t 1).val).toNat = _
    rw [BitVec.toNat_ofNat]
    exact Nat.mod_eq_of_lt (show _ < 4294967296 by omega)

/-- Every pair of block indices is some point's: the points run row-major over the 32×32 grid. -/
theorem point_of (a b : Nat) (ha : a < 32) (hb : b < 32) :
    ∃ t : Fin cfg0.N, win0_1.index t (1 : Fin 3) = a ∧ win0_1.index t (2 : Fin 3) = b := by
  have hs0 : grid0.stride 0 = 32 := by decide
  have hs1 : grid0.stride 1 = 1 := by decide
  refine ⟨⟨a * 32 + b, by rw [show cfg0.N = 1024 from N_0]; omega⟩, ?_, ?_⟩
  · rw [(idx_coords _).1]
    show (a * 32 + b) / grid0.stride 0 % 32 = a
    rw [hs0]; omega
  · rw [(idx_coords _).2]
    show (a * 32 + b) / grid0.stride 1 % 32 = b
    rw [hs1]; omega

/-- The output blocks cover the output array. -/
theorem cover (i : S4x4096x4096.Idx) :
    ∃ t : Fin cfg0.N, (cfg0.win 1).flush t = true ∧ i ∈ ((cfg0.win 1).blk t).view.set := by
  have h0 : (i 0).val < 4 := (i 0).isLt
  have h1 : (i 1).val < 4096 := (i 1).isLt
  have h2 : (i 2).val < 4096 := (i 2).isLt
  obtain ⟨t, ht1, ht2⟩ := point_of ((i 1).val / 128) ((i 2).val / 128) (by omega) (by omega)
  obtain ⟨e0, -, -⟩ := idx_facts t
  refine ⟨t, flush0_1 t, ?_⟩
  rw [mem_blk]
  intro a
  match a with
  | ⟨0, _⟩ =>
    show win0_1.index t (0 : Fin 3) * 4 ≤ (i 0).val ∧ (i 0).val < win0_1.index t (0 : Fin 3) * 4 + 4
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 128 ≤ (i 2).val ∧ (i 2).val < win0_1.index t (2 : Fin 3) * 128 + 128
    omega

/-- THE OUTPUT ARRAY after the run is the transform of the input array. -/
theorem final (c : Dev nD) :
    (dats m 0 c).arrAt 1 cfg0.N = haar scale (m ((c : Thread nD τ).loc main_arg0)) :=
  (dats m 0 c).arrAt_eq_of_cover 1 (haar scale (V m c main_arg0)) (fun t _ => flushed_eq m c t) cover

/-- The kernel's run: it ends with the output array at the transform of the input, the input unchanged. -/
theorem run : θ_run defs (onTc (τ := τ) (main (F := Ideal))) ⟨m, fun _ => 0, ρ⟩ fun r => ∀ c : Dev nD,
      r.2.mem ((c : Thread nD τ).loc main_v0) = haar scale (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Whole

end
-- ==== Proof.RefHaar.lean ====
/-
  The reference, read at an index.

  The host program views the 8192×8192 input as 4096×2×4096×2 (row = 2p + dr, column = 2q + dc), cuts out the
  four 4096×4096 planes of block entries a (dr = 0, dc = 0), b (0, 1), c (1, 0), d (1, 1), adds and subtracts them
  from left to right, scales each signed sum by the constant, and stacks the four results along a new leading axis.
  Read at (k, p, q) that is the left-to-right form of sub-band k of the block at (p, q); for real entries it is the
  rows-first form (the law of the specification), which is the transform as the kernel computes it.
-/
import proofs.«413146_j14989435863553_4_alg».proof.Proof.Gen.ReferenceIdeal.Read
import proofs.«413146_j14989435863553_4_alg».proof.Proof.HaarSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Haar

variable (x : FVec Ideal S8192x8192 .f32)

/-- The plane of upper-left entries: at `(p, q)` the input at `(2p, 2q)`. -/
theorem planeA (p q : Fin 4096) : val_main_v2 (F := Ideal) x (ix2 p q) = x (corner p q 0 0) := by
  have hp := p.isLt
  have hq := q.isLt
  rw [val_main_v2_apply, val_main_v1_apply, val_main_v0_apply]
  refine congrArg x (funext fun a => Fin.ext ?_)
  match a with
  | ⟨0, _⟩ =>
    show (((((p.val * 4096 + q.val) / 4096) * 2 + (0)) * 4096 + ((p.val * 4096 + q.val) / 1 % 4096)) * 2 + (0)) / 8192 = 2 * p.val + 0
    omega
  | ⟨1, _⟩ =>
    show (((((p.val * 4096 + q.val) / 4096) * 2 + (0)) * 4096 + ((p.val * 4096 + q.val) / 1 % 4096)) * 2 + (0)) % 8192 = 2 * q.val + 0
    omega

/-- The plane of upper-right entries: at `(p, q)` the input at `(2p, 2q + 1)`. -/
theorem planeB (p q : Fin 4096) : val_main_v4 (F := Ideal) x (ix2 p q) = x (corner p q 0 1) := by
  have hp := p.isLt
  have hq := q.isLt
  rw [val_main_v4_apply, val_main_v3_apply, val_main_v0_apply]
  refine congrArg x (funext fun a => Fin.ext ?_)
  match a with
  | ⟨0, _⟩ =>
    show (((((p.val * 4096 + q.val) / 4096) * 2 + (0)) * 4096 + ((p.val * 4096 + q.val) / 1 % 4096)) * 2 + (1 + 0)) / 8192 = 2 * p.val + 0
    omega
  | ⟨1, _⟩ =>
    show (((((p.val * 4096 + q.val) / 4096) * 2 + (0)) * 4096 + ((p.val * 4096 + q.val) / 1 % 4096)) * 2 + (1 + 0)) % 8192 = 2 * q.val + 1
    omega

/-- The plane of lower-left entries: at `(p, q)` the input at `(2p + 1, 2q)`. -/
theorem planeC (p q : Fin 4096) : val_main_v6 (F := Ideal) x (ix2 p q) = x (corner p q 1 0) := by
  have hp := p.isLt
  have hq := q.isLt
  rw [val_main_v6_apply, val_main_v5_apply, val_main_v0_apply]
  refine congrArg x (funext fun a => Fin.ext ?_)
  match a with
  | ⟨0, _⟩ =>
    show (((((p.val * 4096 + q.val) / 4096) * 2 + (1 + 0)) * 4096 + ((p.val * 4096 + q.val) / 1 % 4096)) * 2 + (0)) / 8192 = 2 * p.val + 1
    omega
  | ⟨1, _⟩ =>
    show (((((p.val * 4096 + q.val) / 4096) * 2 + (1 + 0)) * 4096 + ((p.val * 4096 + q.val) / 1 % 4096)) * 2 + (0)) % 8192 = 2 * q.val + 0
    omega

/-- The plane of lower-right entries: at `(p, q)` the input at `(2p + 1, 2q + 1)`. -/
theorem planeD (p q : Fin 4096) : val_main_v8 (F := Ideal) x (ix2 p q) = x (corner p q 1 1) := by
  have hp := p.isLt
  have hq := q.isLt
  rw [val_main_v8_apply, val_main_v7_apply, val_main_v0_apply]
  refine congrArg x (funext fun a => Fin.ext ?_)
  match a with
  | ⟨0, _⟩ =>
    show (((((p.val * 4096 + q.val) / 4096) * 2 + (1 + 0)) * 4096 + ((p.val * 4096 + q.val) / 1 % 4096)) * 2 + (1 + 0)) / 8192 = 2 * p.val + 1
    omega
  | ⟨1, _⟩ =>
    show (((((p.val * 4096 + q.val) / 4096) * 2 + (1 + 0)) * 4096 + ((p.val * 4096 + q.val) / 1 % 4096)) * 2 + (1 + 0)) % 8192 = 2 * q.val + 1
    omega

/-- The first scaled sum, at `(p, q)`: all four entries added. -/
theorem band0 (p q : Fin 4096) :
    val_main_v13 (F := Ideal) x (ix2 p q)
      = bandLeft 0 (x (corner p q 0 0)) (x (corner p q 0 1)) (x (corner p q 1 0)) (x (corner p q 1 1)) * scale := by
  rw [val_main_v13_apply, val_main_v11_apply, val_main_v10_apply, val_main_v9_apply, val_main_v12_apply,
    val_main_cst_apply, planeA, planeB, planeC, planeD, bandLeft_zero]
  rfl

/-- The second scaled sum, at `(p, q)`: the upper row minus the lower row. -/
theorem band1 (p q : Fin 4096) :
    val_main_v18 (F := Ideal) x (ix2 p q)
      = bandLeft 1 (x (corner p q 0 0)) (x (corner p q 0 1)) (x (corner p q 1 0)) (x (corner p q 1 1)) * scale := by
  rw [val_main_v18_apply, val_main_v16_apply, val_main_v15_apply, val_main_v14_apply, val_main_v17_apply,
    val_main_cst_0_apply, planeA, planeB, planeC, planeD, bandLeft_one]
  rfl

/-- The third scaled sum, at `(p, q)`: the left column minus the right column. -/
theorem band2 (p q : Fin 4096) :
    val_main_v23 (F := Ideal) x (ix2 p q)
      = bandLeft 2 (x (corner p q 0 0)) (x (corner p q 0 1)) (x (corner p q 1 0)) (x (corner p q 1 1)) * scale := by
  rw [val_main_v23_apply, val_main_v21_apply, val_main_v20_apply, val_main_v19_apply, val_main_v22_apply,
    val_main_cst_1_apply, planeA, planeB, planeC, planeD, bandLeft_two]
  rfl

/-- The fourth scaled sum, at `(p, q)`: the diagonal minus the anti-diagonal. -/
theorem band3 (p q : Fin 4096) :
    val_main_v28 (F := Ideal) x (ix2 p q)
      = bandLeft 3 (x (corner p q 0 0)) (x (corner p q 0 1)) (x (corner p q 1 0)) (x (corner p q 1 1)) * scale := by
  rw [val_main_v28_apply, val_main_v26_apply, val_main_v25_apply, val_main_v24_apply, val_main_v27_apply,
    val_main_cst_2_apply, planeA, planeB, planeC, planeD, bandLeft_three]
  rfl

/-- A 4096×4096 matrix given a leading unit axis is read at `(0, p, q)` where the matrix is read at `(p, q)`. -/
theorem unitIdx (p q : Fin 4096) : idx_main_v29 (ix3 (0 : Fin 1) p q) = ix2 p q := by
  funext a
  match a with
  | ⟨0, _⟩ => rfl
  | ⟨1, _⟩ => rfl

theorem stacked0 (p q : Fin 4096) : val_main_v29 (F := Ideal) x (ix3 (0 : Fin 1) p q) = val_main_v13 (F := Ideal) x (ix2 p q) := by
  rw [val_main_v29_apply]; exact congrArg _ (unitIdx p q)
theorem stacked1 (p q : Fin 4096) : val_main_v30 (F := Ideal) x (ix3 (0 : Fin 1) p q) = val_main_v18 (F := Ideal) x (ix2 p q) := by
  rw [val_main_v30_apply]; exact congrArg _ (unitIdx p q)
theorem stacked2 (p q : Fin 4096) : val_main_v31 (F := Ideal) x (ix3 (0 : Fin 1) p q) = val_main_v23 (F := Ideal) x (ix2 p q) := by
  rw [val_main_v31_apply]; exact congrArg _ (unitIdx p q)
theorem stacked3 (p q : Fin 4096) : val_main_v32 (F := Ideal) x (ix3 (0 : Fin 1) p q) = val_main_v28 (F := Ideal) x (ix2 p q) := by
  rw [val_main_v32_apply]; exact congrArg _ (unitIdx p q)

/-- Off the stacking axis, the index inside a piece has the coordinates of the index in the stack. -/
theorem offAxis (k : Fin 4) (p q : Fin 4096) (b : Fin S1x4096x4096.rank)
    (hb : b.cast (rfl : S1x4096x4096.rank = S4x4096x4096.rank) ≠ (0 : Fin S4x4096x4096.rank)) :
    ((ix3 (0 : Fin 1) p q : S1x4096x4096.Idx) b).val = ((ix3 k p q : S4x4096x4096.Idx) (b.cast rfl)).val := by
  match b with
  | ⟨0, _⟩ => exact absurd rfl hb
  | ⟨1, _⟩ => rfl
  | ⟨2, _⟩ => rfl

/-- THE REFERENCE'S RESULT at `(k, p, q)`: the left-to-right sub-band `k` of the block at `(p, q)`, scaled. -/
theorem result_apply (k : Fin 4) (p q : Fin 4096) :
    val_main_v33 (F := Ideal) x (ix3 k p q)
      = bandLeft k.val (x (corner p q 0 0)) (x (corner p q 0 1)) (x (corner p q 1 0)) (x (corner p q 1 1)) * scale := by
  unfold val_main_v33
  match k with
  | ⟨0, _⟩ =>
    refine (concatenate_apply_piece 0 _ _ (ix3 (0 : Fin 4) p q) 0 (by show (0 : Nat) < 4; omega) S1x4096x4096 (val_main_v29 (F := Ideal) x) rfl rfl 0 rfl
      (ix3 (0 : Fin 1) p q) (offAxis 0 p q) rfl).trans ?_
    rw [stacked0, band0]
  | ⟨1, _⟩ =>
    refine (concatenate_apply_piece 0 _ _ (ix3 (1 : Fin 4) p q) 1 (by show (1 : Nat) < 4; omega) S1x4096x4096 (val_main_v30 (F := Ideal) x) rfl rfl 1 rfl
      (ix3 (0 : Fin 1) p q) (offAxis 1 p q) rfl).trans ?_
    rw [stacked1, band1]
  | ⟨2, _⟩ =>
    refine (concatenate_apply_piece 0 _ _ (ix3 (2 : Fin 4) p q) 2 (by show (2 : Nat) < 4; omega) S1x4096x4096 (val_main_v31 (F := Ideal) x) rfl rfl 2 rfl
      (ix3 (0 : Fin 1) p q) (offAxis 2 p q) rfl).trans ?_
    rw [stacked2, band2]
  | ⟨3, _⟩ =>
    refine (concatenate_apply_piece 0 _ _ (ix3 (3 : Fin 4) p q) 3 (by show (3 : Nat) < 4; omega) S1x4096x4096 (val_main_v32 (F := Ideal) x) rfl rfl 3 rfl
      (ix3 (0 : Fin 1) p q) (offAxis 3 p q) rfl).trans ?_
    rw [stacked3, band3]

/-- On an input whose entries are all real numbers the reference computes the transform. -/
theorem result_eq (hx : ∀ i, ∃ r : ℝ, x i = (r : EReal)) : val_main_v33 (F := Ideal) x = haar scale x := by
  funext j
  obtain ⟨k, p, q, rfl⟩ : ∃ (k : Fin 4) (p q : Fin 4096), j = ix3 k p q := ⟨j 0, j 1, j 2, eq_ix3 j⟩
  obtain ⟨a, ha⟩ := hx (corner p q 0 0)
  obtain ⟨b, hb⟩ := hx (corner p q 0 1)
  obtain ⟨c, hc⟩ := hx (corner p q 1 0)
  obtain ⟨d, hd⟩ := hx (corner p q 1 1)
  rw [result_apply]
  show _ = bandRows k.val (x (corner p q 0 0)) (x (corner p q 0 1)) (x (corner p q 1 0)) (x (corner p q 1 1)) * scale
  rw [ha, hb, hc, hd, bandLeft_eq_bandRows]

end Cert.ReferenceIdeal.RefValue

end
-- ==== Proof.lean ====
/-
  The kernel and the reference compute one function: a single level of the two-dimensional Haar transform.

  The input x is 8192×8192. Its non-overlapping 2×2 blocks (a b / c d), at rows 2p, 2p+1 and columns 2q, 2q+1,
  give four 4096×4096 output planes: half of a+b+c+d, a+b−c−d, a−b+c−d and a−b−c+d at (p, q).

  * The kernel works on 256×256 tiles. In a tile it adds and subtracts the even and odd rows, then splits the
    columns of both results into even and odd and adds or subtracts those: (a±c) ± (b±d), times one half
    (Proof/KernelBlock.lean reads the tile's result at an index; Proof/KernelArray.lean shows that the tiles'
    results are the blocks of the transform of the whole input and that they fill the output).
  * The reference reshapes x to 4096×2×4096×2, cuts out the planes of the a, b, c and d entries, adds them from
    left to right, ((a±b)±c)±d, scales by one half and stacks the four planes (Proof/RefHaar.lean).
  * Both scale by the same constant, so the two results agree as soon as the two groupings of each signed sum
    agree. They do for real numbers (Proof/HaarSpec.lean), not for all extended reals, and the precondition says
    exactly that every entry of x is real (Proof/Finite.lean).

  The three programs run and leave their argument unchanged: the two kernel programs by their generated frames,
  the reference by its generated run. The kernel's idealization rewrote no operation, so there is nothing to
  preserve.
-/
import proofs.«413146_j14989435863553_4_alg».proof.Defs
import proofs.«413146_j14989435863553_4_alg».proof.Proof.Gen.Kernel
import proofs.«413146_j14989435863553_4_alg».proof.Proof.Gen.Kernel.Skeleton
import proofs.«413146_j14989435863553_4_alg».proof.Proof.Gen.Kernel.Launch
import proofs.«413146_j14989435863553_4_alg».proof.Proof.Gen.Kernel.Points
import proofs.«413146_j14989435863553_4_alg».proof.Proof.Gen.Kernel.Frame
import proofs.«413146_j14989435863553_4_alg».proof.Proof.Gen.KernelIdeal
import proofs.«413146_j14989435863553_4_alg».proof.Proof.Gen.KernelIdeal.Skeleton
import proofs.«413146_j14989435863553_4_alg».proof.Proof.Gen.KernelIdeal.Launch
import proofs.«413146_j14989435863553_4_alg».proof.Proof.Gen.KernelIdeal.Points
import proofs.«413146_j14989435863553_4_alg».proof.Proof.Gen.KernelIdeal.Frame
import proofs.«413146_j14989435863553_4_alg».proof.Proof.Gen.ReferenceIdeal
import proofs.«413146_j14989435863553_4_alg».proof.Proof.Gen.Pre_finite_inputs
import proofs.«413146_j14989435863553_4_alg».proof.Proof.Gen.KernelIdeal.Value
import proofs.«413146_j14989435863553_4_alg».proof.Proof.Gen.ReferenceIdeal.Run
import proofs.«413146_j14989435863553_4_alg».proof.Proof.Gen.ReferenceIdeal.Read
import proofs.«413146_j14989435863553_4_alg».proof.Proof.HaarSpec
import proofs.«413146_j14989435863553_4_alg».proof.Proof.Finite
import proofs.«413146_j14989435863553_4_alg».proof.Proof.KernelBlock
import proofs.«413146_j14989435863553_4_alg».proof.Proof.KernelArray
import proofs.«413146_j14989435863553_4_alg».proof.Proof.RefHaar
import Idealize.ShloMosaic.Adequacy
import Idealize.ShloMosaic.Init

noncomputable section

namespace Cert.Proof

open Idealize.ShloMosaic Idealize.ShloMosaic.TcCoe Idealize.SL.Sem

/-- The kernel as printed runs and keeps its argument. -/
theorem frame_kernel : Cert.frame_Kernel := fun m ρ _ => Cert.Kernel.Gen.frame m ρ

/-- The idealized kernel runs and keeps its argument. -/
theorem frame_kernelIdeal : Cert.frame_KernelIdeal := fun m ρ _ => Cert.KernelIdeal.Gen.frame m ρ

/-- The reference runs and keeps its argument: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on a real-valued input both programs end with the output at the transform of that
    input: the kernel's array by its tiles, the reference's by the law joining the two groupings of each sum. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, hagree c]
  exact Cert.ReferenceIdeal.RefValue.result_eq _
    (fun i => Cert.Pre_finite_inputs.Finite.real_of_pre _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
